-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S10000x10000 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S200x128, .f32⟩
  | .local _ .vmem, ⟨7, _⟩ => ⟨S200x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v12 : BitVec 32 := Scalar.muli arg0 c200_i32
  let v13 : Index := Scalar.indexCast v12
  let c0_8 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  h_S200x128 : 0 < S200x128.numel
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x10000, .f32⟩
  | .hbm, ⟨5, _⟩ => ⟨S10000x10000, .i32⟩
  | .hbm, ⟨6, _⟩ => ⟨S10000x10000, .i32⟩
  | .hbm, ⟨7, _⟩ => ⟨S_, .i32⟩
  | .hbm, ⟨8, _⟩ => ⟨S10000x10000, .i32⟩
  | .hbm, ⟨9, _⟩ => ⟨S10000x10000, .i32⟩
  | .hbm, ⟨10, _⟩ => ⟨S10000x10000, .i1⟩
  | .hbm, ⟨11, _⟩ => ⟨S10000x10000, .f32⟩
  | .hbm, ⟨12, _⟩ => ⟨S10000x10000, .f32⟩
  | .hbm, ⟨13, _⟩ => ⟨S128x128, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What each of the body's two cases leaves behind, as the body's own arithmetic of the values it loads.

  The body keeps the projected features `h = x · wᵀ` in a scratch buffer that lives across grid points.
  At the first grid point (case A) it computes `h` from the whole feature array and the weights, stores
  it into the scratch, and reads it straight back for the product with the masked adjacency strip; at
  every later point (case B) it only reads the scratch. In both cases the 200-row output block is the
  body's final sum: (adjacency strip ∘ mask strip) · (scratch) + (the strip's own 200 rows of `x`) · `wᵀ`.
  The strip's own rows of `x` are a load of the resident feature array at row offset `200 · i`
  (`ownRows`). These hold at any float instance.
-/
import proofs.«152034_g4569845203241_cont_8to1_c_799_20_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- The two zero offsets of a whole-buffer access, as a constant function. -/
theorem zero_off : (![0, 0] : Fin 2 → Nat) = fun _ => 0 := funext fun a => by fin_cases a <;> rfl

/-- The 200 rows of the feature array that belong to grid point `i`'s strip: the rows from `200 · i` on. -/
def ownRows (i : grid0.Coords) (x2 : Vec F S10000x128 .f32) : Vec F S200x128 .f32 :=
  View.ld x2 (Rect.unit (s := S10000x128) (k0_off1 i) S200x128.size (k0_off1_inb i))

/-- Case A leaves the projected features in the scratch: the first payload of the weights and the whole
    feature array. -/
theorem scratch_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (hc0 : cond0_0 i)
    (x0 : Vec F S200x10000 .f32) (x1 : Vec F S200x10000 .f32) (x2 : Vec F S10000x128 .f32) (x3 : Vec F S128x128 .f32) :
    sout0_A_0 c i arg1 harg1 arg2 harg2 arg3 harg3 arg4 harg4 arg5 harg5 arg6 harg6 hc0 x0 x1 x2 x3 = k0_pay2 x3 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero zero_off]
  simp only [View.readAt_eq_ld, harg3.read_unread, harg4.read_unread, View.ld_unit_zero (S := S10000x128) zero_off,
    View.ld_unit_zero (S := S128x128) zero_off]

/-- Case A's output block: the body's sum, with the scratch read back as the projected features it has
    just stored. -/
theorem out_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (hc0 : cond0_0 i)
    (x0 : Vec F S200x10000 .f32) (x1 : Vec F S200x10000 .f32) (x2 : Vec F S10000x128 .f32) (x3 : Vec F S128x128 .f32) :
    out0_A_4 c i arg1 harg1 arg2 harg2 arg3 harg3 arg4 harg4 arg5 harg5 arg6 harg6 hc0 x0 x1 x2 x3 = k0_pay3 x3 x0 x1 (k0_pay2 x3 x2) (ownRows i x2) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero zero_off]
  simp only [View.readAt_eq_ld, harg1.read_unread, harg2.read_unread, harg3.read_unread, harg4.read_unread,
    View.readCov_unit_zero (S := S10000x128) _ zero_off,
    View.ld_unit_zero (S := S10000x128) zero_off, View.ld_unit_zero (S := S128x128) zero_off,
    View.ld_unit_zero (S := S200x10000) zero_off]
  rfl

/-- Case B's output block: the same sum over whatever the scratch holds from the point before. -/
theorem out_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S200x128 .f32) (harg5 : arg5.IsWhole) (arg6 : Memref sig .tc .vmem S10000x128 .bf16) (harg6 : arg6.IsWhole) (hc0 : ¬cond0_0 i)
    (x0 : Vec F S200x10000 .f32) (x1 : Vec F S200x10000 .f32) (x2 : Vec F S10000x128 .f32) (x3 : Vec F S128x128 .f32) (xs0 : Vec F S10000x128 .bf16) :
    out0_B_4 c i arg1 harg1 arg2 harg2 arg3 harg3 arg4 harg4 arg5 harg5 arg6 harg6 hc0 x0 x1 x2 x3 xs0 = k0_pay3 x3 x0 x1 xs0 (ownRows i x2) := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero zero_off]
  simp only [View.readAt_eq_ld, harg1.read_unread, harg2.read_unread, harg3.read_unread, harg4.read_unread,
    harg6.read_unread,
    View.ld_unit_zero (S := S10000x128) zero_off, View.ld_unit_zero (S := S128x128) zero_off,
    View.ld_unit_zero (S := S200x10000) zero_off]
  rfl

end Cert.KernelIdeal.Pieces

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.GcnLaw.lean ====
/-
  The one algebraic law that joins the two arrangements of the graph-convolution layer, on the extended
  reals at FINITE entries. With `a` a row of the masked adjacency, `h` a column of the projected
  features and `r` the row's own position,
      ∑ k, (a k + [r = k]) * h k  =  (∑ k, a k * h k) + h r :
  adding the identity matrix to the adjacency before the product is adding the row's own feature after
  it. Distributing the product over the sum is where finiteness is used: on the extended reals
  `(a + b) * c = a * c + b * c` fails at infinities, so both sides are first written as coercions of
  real expressions and the law is proved in ℝ.
-/
import Mathlib.Data.EReal.Basic
import Mathlib.Data.EReal.Operations
import Mathlib.Algebra.BigOperators.Ring.Finset
import Mathlib.Algebra.BigOperators.Fin

open scoped BigOperators

namespace Cert.GcnLaw

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of products of real entries is a real: the product of two matrices with finite entries has
    finite entries. -/
theorem sum_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The law in ℝ. -/
theorem real_law {n : ℕ} (a h : Fin n → ℝ) (r : Fin n) :
    ∑ k, (a k + (if r = k then (1 : ℝ) else 0)) * h k = (∑ k, a k * h k) + h r := by
  simp only [add_mul, Finset.sum_add_distrib, ite_mul, one_mul, zero_mul, Finset.sum_ite_eq,
    Finset.mem_univ, if_true]

/-- The law on the extended reals at real entries, the indicator of the diagonal written as the
    extended reals `1` and `0`. -/
theorem ereal_law {n : ℕ} (a h : Fin n → ℝ) (r : Fin n) :
    ∑ k, ((a k : EReal) + (if r = k then (1 : EReal) else 0)) * (h k : EReal)
      = (∑ k, (a k : EReal) * (h k : EReal)) + (h r : EReal) := by
  have e : ∀ k, ((a k : EReal) + (if r = k then (1 : EReal) else 0)) * (h k : EReal)
      = (((a k + (if r = k then (1 : ℝ) else 0)) * h k : ℝ) : EReal) := by
    intro k
    by_cases hk : r = k
    · simp only [hk, if_true, EReal.coe_mul, EReal.coe_add, EReal.coe_one]
    · simp only [hk, if_false, EReal.coe_mul, EReal.coe_add, EReal.coe_zero]
  rw [Finset.sum_congr rfl fun k _ => e k, ← coe_sum, real_law, EReal.coe_add, coe_sum]
  exact congrArg (· + (h r : EReal)) (Finset.sum_congr rfl fun k _ => EReal.coe_mul _ _)

end Cert.GcnLaw
-- ==== Proof.Spec.lean ====
/-
  The graph-convolution layer as ONE function of its four argument arrays, index by index, on the
  extended reals, and the law that joins the reference's arrangement of it to the kernel's.

  With `x : [n, d]` the node features, `a`, `mk : [n, n]` the adjacency and its mask, `w : [h, d]`
  the weights:
    * `proj x w`  is the projected features `x · wᵀ`  (`[n, h]`; entry `(k, q)` is `∑ j, x (k, j) · w (q, j)`);
    * `madj a mk` is the masked adjacency, the entrywise product (`[n, n]`);
    * `layer`     is `madj · proj + proj`: row `r` of the masked adjacency against column `q` of the
      projected features, plus node `r`'s own projected feature.
  The reference instead adds the identity matrix to the masked adjacency first and multiplies once:
  `∑ k, (madj (r, k) + [r = k]) · proj (k, q)`. The two agree when every entry is finite
  (`ref_eq_layer`): distributing the product over `madj + identity` is valid on real numbers and not
  at infinities, which is exactly what the finiteness of the inputs is used for.
-/
import Idealize.ShloMosaic.Lib.ValueIdx
import Idealize.ShloMosaic.PureOps.Ideal.Laws
import proofs.«152034_g4569845203241_cont_8to1_c_799_20_alg».proof.Proof.LibRowDot
import proofs.«152034_g4569845203241_cont_8to1_c_799_20_alg».proof.Proof.GcnLaw

noncomputable section

open scoped BigOperators

namespace Cert.GcnSpec

open Idealize.ShloMosaic Idealize.ShloMosaic.ValueIdx Cert.LibRowDot

variable {n d h : ℕ}

/-- The transposed weights: entry `(j, q)` of `wᵀ` is entry `(q, j)` of `w`. -/
def wt (w : Mat h d) : Mat d h := fun i => w (ix2 (i 1) (i 0))

/-- The projected features `x · wᵀ`. -/
def proj (x : Mat n d) (w : Mat h d) : Mat n h := fun i => rowDot x (wt w) (i 0) (i 1)

/-- The masked adjacency: the entrywise product. -/
def madj (a mk : Mat n n) : Mat n n := fun i => a i * mk i

/-- The layer: masked adjacency times projected features, plus the node's own projected feature. -/
def layer (x : Mat n d) (a mk : Mat n n) (w : Mat h d) : Mat n h :=
  fun i => rowDot (madj a mk) (proj x w) (i 0) (i 1) + proj x w i

/-- Every entry of the array is a real number (neither infinity). -/
def IsReal {s : Shape} (f : s.Idx → EReal) : Prop := ∀ i, ∃ v : ℝ, f i = (v : EReal)

/-- The diagonal indicator as the reference spells it — the row number plus zero compared, as 32-bit
    words, with the column number, the resulting bit read as a float — is `1` on the diagonal and `0`
    off it: row and column numbers below `2 ^ 32` are equal as words exactly when they are equal. -/
theorem diag_word (r k : Fin n) (hn : n ≤ 2 ^ 32) :
    FloatOps.uitofp (F := Ideal) .f32
        (IntOp.cmpi .eq (IntOp.addi (BitVec.ofNat 32 r.val) 0#32) (BitVec.ofNat 32 k.val))
      = if r = k then (1 : EReal) else 0 := by
  show (((IntOp.cmpi .eq (IntOp.addi (BitVec.ofNat 32 r.val) 0#32) (BitVec.ofNat 32 k.val)).toNat : ℝ) : EReal) = _
  have hr : r.val < 2 ^ 32 := lt_of_lt_of_le r.isLt hn
  have hk : k.val < 2 ^ 32 := lt_of_lt_of_le k.isLt hn
  have e0 : IntOp.addi (BitVec.ofNat 32 r.val) 0#32 = BitVec.ofNat 32 r.val := by
    unfold IntOp.addi; exact BitVec.add_zero _
  rw [e0]
  by_cases hrk : r = k
  · subst hrk
    have : IntOp.cmpi .eq (BitVec.ofNat 32 r.val) (BitVec.ofNat 32 r.val) = 1#1 := by
      unfold IntOp.cmpi; simp
    rw [this, if_pos rfl]; simp
  · have hne : BitVec.ofNat 32 r.val ≠ BitVec.ofNat 32 k.val := by
      intro e
      have := congrArg BitVec.toNat e
      rw [BitVec.toNat_ofNat, BitVec.toNat_ofNat, Nat.mod_eq_of_lt hr, Nat.mod_eq_of_lt hk] at this
      exact hrk (Fin.ext this)
    have : IntOp.cmpi .eq (BitVec.ofNat 32 r.val) (BitVec.ofNat 32 k.val) = 0#1 := by
      unfold IntOp.cmpi
      show BitVec.ofBool (BitVec.ofNat 32 r.val == BitVec.ofNat 32 k.val) = 0#1
      rw [beq_eq_false_iff_ne.mpr hne]; rfl
    rw [this, if_neg hrk]; simp

/-- With real entries the projected features are real: a finite sum of products of reals. -/
theorem proj_real (x : Mat n d) (w : Mat h d) (x' : (⟨2, ![n, d]⟩ : Shape).Idx → ℝ)
    (w' : (⟨2, ![h, d]⟩ : Shape).Idx → ℝ) (hx : ∀ i, x i = (x' i : EReal)) (hw : ∀ i, w i = (w' i : EReal))
    (k : Fin n) (q : Fin h) :
    proj x w (ix2 k q) = ((∑ j : Fin d, x' (ix2 k j) * w' (ix2 q j) : ℝ) : EReal) := by
  unfold proj rowDot wt
  rw [← Cert.GcnLaw.sum_mul_coe]
  refine Finset.sum_congr rfl fun j _ => ?_
  show x (ix2 k j) * w (ix2 q j) = _
  rw [hx, hw]

/-- THE LAW: at finite entries the reference's arrangement — the identity added to the masked
    adjacency, then one product — is the layer. -/
theorem ref_eq_layer (x : Mat n d) (a mk : Mat n n) (w : Mat h d)
    (hx : IsReal x) (ha : IsReal a) (hm : IsReal mk) (hw : IsReal w) (r : Fin n) (q : Fin h) :
    ∑ k : Fin n, (a (ix2 r k) * mk (ix2 r k) + (if r = k then (1 : EReal) else 0)) * proj x w (ix2 k q)
      = layer x a mk w (ix2 r q) := by
  choose x' hx' using hx
  choose a' ha' using ha
  choose m' hm' using hm
  choose w' hw' using hw
  have hp := proj_real x w x' w' hx' hw'
  have e := Cert.GcnLaw.ereal_law (fun k => a' (ix2 r k) * m' (ix2 r k))
    (fun k => ∑ j : Fin d, x' (ix2 k j) * w' (ix2 q j)) r
  unfold layer rowDot madj
  refine Eq.trans (Finset.sum_congr rfl fun k _ => ?_) (e.trans ?_)
  · rw [hp, ha', hm', ← EReal.coe_mul]
  · refine congrArg₂ (· + ·) (Finset.sum_congr rfl fun k _ => ?_) (hp r q).symm
    show _ = a (ix2 r k) * mk (ix2 r k) * proj x w (ix2 k q)
    rw [hp, ha', hm', EReal.coe_mul]

end Cert.GcnSpec

end
-- ==== Proof.Payload.lean ====
/-
  The body's arithmetic, read at an index on the extended reals.

  At the ideal values a change of float format is the identity, a shape cast to the same shape is the
  identity, and a matrix product into a zero accumulator is the row-by-column sum. So, index by index:
    * the first payload, the transposed weights cast to the narrow format, is `wᵀ`;
    * the second, what the first grid point stores into the scratch, is the projected features
      `x · wᵀ` of the whole feature array;
    * the third, the output block, at row `p` and column `q` of the block is
        (row `p` of the entrywise product of the adjacency and mask strips) · (column `q` of the scratch)
        + (row `p` of the strip's own feature rows) · (column `q` of `wᵀ`).
-/
import proofs.«152034_g4569845203241_cont_8to1_c_799_20_alg».proof.Proof.Gen.KernelIdeal.Skeleton
import Idealize.ShloMosaic.Lib.Pipeline.Value
import Idealize.ShloMosaic.Lib.ValueIdx
import Idealize.ShloMosaic.PureOps.Ideal.Laws
import proofs.«152034_g4569845203241_cont_8to1_c_799_20_alg».proof.Proof.Spec

noncomputable section

open scoped BigOperators

namespace Cert.KernelIdeal.GcnPayload

open Cert.KernelIdeal Cert.KernelIdeal.Gen Idealize.ShloMosaic Idealize.ShloMosaic.ValueIdx
open Cert.LibRowDot Cert.GcnSpec

/-- A matrix product into a zero accumulator, at the ideal values, is the row-by-column sum whatever
    float formats its two operands are typed at (every format is the extended reals there). -/
theorem matmul_zero_rowDot {n d h : ℕ} {φ₁ φ₂ : FTy} (D : DotDims ⟨2, ![n, d]⟩ ⟨2, ![d, h]⟩ ⟨2, ![n, h]⟩)
    (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ φ₁)
    (r : FVec Ideal ⟨2, ![d, h]⟩ φ₂) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The first payload is the transposed weights. -/
theorem pay1_eq (w : Vec Ideal S128x128 .f32) : (k0_pay1 (F := Ideal) w : Mat 128 128) = wt w := by
  funext i
  unfold k0_pay1
  refine (transpose_apply [1, 0] _ transposes_S128x128_p1_0_S128x128 i (ix2 (i 1) (i 0)) (fun b => ?_)).trans rfl
  match b with
  | ⟨0, _⟩ => rfl
  | ⟨1, _⟩ => rfl

/-- The second payload is the projected features of the whole feature array. -/
theorem pay2_eq (w : Vec Ideal S128x128 .f32) (x : Vec Ideal S10000x128 .f32) :
    (k0_pay2 (F := Ideal) w x : Mat 10000 128) = proj x w := by
  funext i
  unfold k0_pay2
  rw [shapeCast_self]
  show FloatOps.matmul dot_S10000x128_S128x128_S10000x128_1_0_0_1_n_n none
      (truncf .bf16 x bitsLt_bf16_f32) (k0_pay1 (F := Ideal) w) (constant S10000x128 .f32 0x00000000#32) i = _
  rw [matmul_zero_rowDot _ rfl rfl rfl rfl rfl rfl, pay1_eq]
  rfl

/-- The third payload at row `p`, column `q` of the block. -/
theorem pay3_apply (w : Vec Ideal S128x128 .f32) (ab mb : Vec Ideal S200x10000 .f32)
    (hh : Vec Ideal S10000x128 .bf16) (xr : Vec Ideal S200x128 .f32) (p : Fin 200) (q : Fin 128) :
    k0_pay3 (F := Ideal) w ab mb hh xr (ix2 p q)
      = rowDot (fun i => ab i * mb i) (hh : Mat 10000 128) p q + rowDot (xr : Mat 200 128) (wt w) p q := by
  unfold k0_pay3
  show FloatOps.matmul dot_S200x10000_S10000x128_S200x128_1_0_0_1_n_n none
        (truncf .bf16 (mulf ab mb) bitsLt_bf16_f32) hh (constant S200x128 .f32 0x00000000#32) (ix2 p q)
      + FloatOps.matmul dot_S200x128_S128x128_S200x128_1_0_0_1_n_n none
        (truncf .bf16 xr bitsLt_bf16_f32) (k0_pay1 (F := Ideal) w) (constant S200x128 .f32 0x00000000#32) (ix2 p q) = _
  rw [matmul_zero_rowDot _ rfl rfl rfl rfl rfl rfl, matmul_zero_rowDot _ rfl rfl rfl rfl rfl rfl, pay1_eq]
  rfl

end Cert.KernelIdeal.GcnPayload

end
-- ==== Proof.Blocks.lean ====
/-
  The kernel's result array is the layer.

  The grid has 50 points; point `t` handles rows `200·t … 200·t + 199` (`row t p`). Its adjacency and
  mask blocks are those rows of the two big arrays (all columns); the feature array and the weights are
  resident, every point's block of them the whole array.

  The scratch. The first point stores the projected features `x · wᵀ` of the whole feature array into
  the scratch, and no later point writes it: by induction on the point, after EVERY point the scratch
  holds the projected features (`scratch_eq`).

  What a point writes back. In either case the output block is the body's sum over the scratch, and by
  the invariant the scratch is the projected features; so block `t`, at its row `p` and column `q`, is
      ∑ k, adj (row t p, k) · mask (row t p, k) · h (k, q)  +  ∑ j, x (row t p, j) · w (q, j),
  the layer at `(row t p, q)` (`out_block_eq`): block `t` of the layer (`flushed_eq`).

  The cover. Row `r` lies in the block of point `r / 200`; the 50 blocks tile the array, so the array
  ends holding the layer (`final`), and the run's post is restated with it (`run`).
-/
import proofs.«152034_g4569845203241_cont_8to1_c_799_20_alg».proof.Proof.Gen.KernelIdeal.Value
import proofs.«152034_g4569845203241_cont_8to1_c_799_20_alg».proof.Proof.Pieces
import proofs.«152034_g4569845203241_cont_8to1_c_799_20_alg».proof.Proof.Payload

set_option maxRecDepth 16384

noncomputable section

open Idealize.ShloMosaic Idealize.ShloMosaic.TcCoe Idealize.SL.Sem Idealize.ShloMosaic.Tactic
open Idealize.ShloMosaic.Pipeline (Dat)

open scoped BigOperators

namespace Cert.KernelIdeal.GcnBlocks

open Cert.KernelIdeal Cert.KernelIdeal.Gen Cert.KernelIdeal.Value Cert.KernelIdeal.Pieces Cert.KernelIdeal.GcnPayload
open Idealize.ShloMosaic.ValueIdx Cert.LibRowDot Cert.GcnSpec

/-! ## The arrays and the blocks, at any float instance -/

section AnyInstance

variable {F : FTy → Type} [FloatOps F]
variable (m : (ℓ : Loc nD τ sig) → Buf (Elt F) ℓ)

/-- The four argument arrays as the region finds them. -/
abbrev xarr (c : Dev nD) : Vec F S10000x128 .f32 := V m c main_arg0
abbrev aarr (c : Dev nD) : Vec F S10000x10000 .f32 := V m c main_arg1
abbrev marr (c : Dev nD) : Vec F S10000x10000 .f32 := V m c main_arg2
abbrev warr (c : Dev nD) : Vec F S128x128 .f32 := V m c main_arg3
/-- The four input blocks at a grid point. -/
abbrev ablk (c : Dev nD) (t : Fin cfg0.N) : Vec F S200x10000 .f32 := iblk m c 0 t
abbrev mblk (c : Dev nD) (t : Fin cfg0.N) : Vec F S200x10000 .f32 := iblk m c 1 t
abbrev xblk (c : Dev nD) (t : Fin cfg0.N) : Vec F S10000x128 .f32 := iblk m c 2 t
abbrev wblk (c : Dev nD) (t : Fin cfg0.N) : Vec F S128x128 .f32 := iblk m c 3 t

/-- The printed index maps, decided over the 50 grid points: the adjacency, mask and output blocks move
    down the rows with the point and stay at column block 0; the features and weights stay at block
    (0, 0); the point's one grid coordinate is its number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- Row `p` of grid point `t`'s strip is row `200·t + p` of the arrays. -/
def row (t : Fin cfg0.N) (p : Fin 200) : Fin 10000 :=
  ⟨200 * t.val + p.val, by
    have h := lt_of_lt_of_eq t.isLt (show cfg0.N = 50 from N_0); have := p.isLt; omega⟩

theorem row_val (t : Fin cfg0.N) (p : Fin 200) : (row t p).val = 200 * t.val + p.val := rfl

/-- The feature block at any point is the whole feature array. -/
theorem xblk_eq (c : Dev nD) (t : Fin cfg0.N) : xblk m c t = xarr m c := by
  obtain ⟨-, -, -, -, e0, e1, -⟩ := idx_facts t
  funext y
  show V m c main_arg0 (((cfg0.win 2).blk t).view.emb y) = V m c main_arg0 y
  refine congrArg (V m c main_arg0) (funext fun a => Fin.ext ?_)
  match a with
  | ⟨0, _⟩ => show win0_2.index t (0 : Fin 2) * 10000 + 1 * (y 0).val = (y 0).val; omega
  | ⟨1, _⟩ => show win0_2.index t (1 : Fin 2) * 128 + 1 * (y 1).val = (y 1).val; omega

/-- The weight block at any point is the whole weight array. -/
theorem wblk_eq (c : Dev nD) (t : Fin cfg0.N) : wblk m c t = warr m c := by
  obtain ⟨-, -, -, -, -, -, e0, e1, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The adjacency block: rows `row t p` of the adjacency, all columns. -/
theorem ablk_apply (c : Dev nD) (t : Fin cfg0.N) (p : Fin 200) (k : Fin 10000) :
    ablk m c t (ix2 p k) = aarr m c (ix2 (row t p) k) := by
  obtain ⟨e0, e1, -⟩ := idx_facts t
  show V m c main_arg1 (((cfg0.win 0).blk t).view.emb (ix2 p k)) = V m c main_arg1 (ix2 (row t p) k)
  refine congrArg (V m c main_arg1) (funext fun a => Fin.ext ?_)
  match a with
  | ⟨0, _⟩ => show win0_0.index t (0 : Fin 2) * 200 + 1 * p.val = 200 * t.val + p.val; omega
  | ⟨1, _⟩ => show win0_0.index t (1 : Fin 2) * 10000 + 1 * k.val = k.val; omega

/-- The mask block likewise. -/
theorem mblk_apply (c : Dev nD) (t : Fin cfg0.N) (p : Fin 200) (k : Fin 10000) :
    mblk m c t (ix2 p k) = marr m c (ix2 (row t p) k) := by
  obtain ⟨-, -, e0, e1, -⟩ := idx_facts t
  show V m c main_arg2 (((cfg0.win 1).blk t).view.emb (ix2 p k)) = V m c main_arg2 (ix2 (row t p) k)
  refine congrArg (V m c main_arg2) (funext fun a => Fin.ext ?_)
  match a with
  | ⟨0, _⟩ => show win0_1.index t (0 : Fin 2) * 200 + 1 * p.val = 200 * t.val + p.val; omega
  | ⟨1, _⟩ => show win0_1.index t (1 : Fin 2) * 10000 + 1 * k.val = k.val; omega

/-- The strip's own feature rows: rows `row t p` of the feature array. -/
theorem ownRows_apply (c : Dev nD) (t : Fin cfg0.N) (p : Fin 200) (j : Fin 128) :
    ownRows (grid0.coords t) (xarr m c) (ix2 p j) = xarr m c (ix2 (row t p) j) := by
  obtain ⟨-, -, -, -, -, -, -, -, -, -, eg⟩ := idx_facts t
  have ho : k0_off1 (grid0.coords t) (0 : Fin 2) = 200 * (grid0.coords t 0).val :=
    congrFun (k0_off1_eq (grid0.coords t)) 0
  have h1 : k0_off1 (grid0.coords t) (1 : Fin 2) = 0 := congrFun (k0_off1_eq (grid0.coords t)) 1
  show xarr m c ((Rect.unit (s := S10000x128) (k0_off1 (grid0.coords t)) S200x128.size
      (k0_off1_inb (grid0.coords t))).idx (ix2 p j)) = _
  refine congrArg (xarr m c) (funext fun a => Fin.ext ?_)
  match a with
  | ⟨0, _⟩ => show k0_off1 (grid0.coords t) (0 : Fin 2) + 1 * p.val = 200 * t.val + p.val; omega
  | ⟨1, _⟩ => show k0_off1 (grid0.coords t) (1 : Fin 2) + 1 * j.val = j.val; omega

/-- THE SCRATCH INVARIANT: after every point the scratch holds the projected features of the whole
    feature array — stored at the first point, untouched afterwards. -/
theorem scratch_eq (c : Dev nD) : ∀ (n : ℕ) (hn : n < cfg0.N),
    (outsAt0 m c n hn).2 = k0_pay2 (warr m c) (xarr m c)
  | 0, hn => by
    rw [outsAt0_A m c ⟨0, hn⟩ rfl]
    dsimp only
    refine (scratch_A (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl)
      (ablk m c ⟨0, hn⟩) (mblk m c ⟨0, hn⟩) (xblk m c ⟨0, hn⟩) (wblk m c ⟨0, hn⟩)).trans ?_
    rw [xblk_eq, wblk_eq]
  | n + 1, hn => by
    have hN : n + 1 < 50 := lt_of_lt_of_eq hn (show cfg0.N = 50 from N_0)
    have h0 : ¬ (n + 1) % 50 = 0 := by omega
    rw [outsAt0_B m c ⟨n + 1, hn⟩ h0]
    dsimp only
    unfold sout0_B_0
    exact scratch_eq c n (Nat.lt_of_succ_lt hn)

/-- WHAT A POINT LEAVES IN THE OUTPUT BLOCK: the body's sum over the adjacency and mask blocks, the
    projected features, and the strip's own feature rows — the same term in both cases. -/
theorem out_eq (c : Dev nD) (t : Fin cfg0.N) :
    (outsAt0 m c t.val t.isLt).1
      = k0_pay3 (warr m c) (ablk m c t) (mblk m c t) (k0_pay2 (warr m c) (xarr m c))
          (ownRows (grid0.coords t) (xarr m c)) := by
  by_cases h0 : t.val % 50 = 0
  · rw [outsAt0_A m c t h0]
    dsimp only
    refine (out_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (ablk m c t) (mblk m c t) (xblk m c t) (wblk m c t)).trans ?_
    rw [xblk_eq, wblk_eq]
  · rw [outsAt0_B m c t h0]
    dsimp only
    refine (out_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (ablk m c t) (mblk m c t) (xblk m c t) (wblk m c t)
      (outsAt0 m c (t.val - 1) (Nat.lt_of_le_of_lt (Nat.sub_le _ _) t.isLt)).2).trans ?_
    rw [xblk_eq, wblk_eq, scratch_eq]

end AnyInstance

/-! ## At the ideal values: the block is the layer's -/

section AtIdeal

variable (m : (ℓ : Loc nD τ sig) → Buf (Elt Ideal) ℓ) (ρ : Dev nD → PrngReg)

/-- The layer of the four argument arrays. -/
def result (c : Dev nD) : Vec Ideal S10000x128 .f32 :=
  layer (xarr m c : Mat 10000 128) (aarr m c : Mat 10000 10000) (marr m c) (warr m c : Mat 128 128)

/-- The output block of point `t`, index by index, is the layer at the strip's rows. -/
theorem out_block_eq (c : Dev nD) (t : Fin cfg0.N) :
    (k0_pay3 (warr m c) (ablk m c t) (mblk m c t) (k0_pay2 (warr m c) (xarr m c))
        (ownRows (grid0.coords t) (xarr m c)) : Vec Ideal S200x128 .f32)
      = fun y => result m c (ix2 (row t (y 0)) (y 1)) := by
  funext y
  obtain ⟨p, q, rfl⟩ : ∃ (p : Fin 200) (q : Fin 128), y = ix2 p q := ⟨y 0, y 1, eq_ix2 y⟩
  rw [pay3_apply, pay2_eq]
  show _ = rowDot (madj (aarr m c : Mat 10000 10000) (marr m c)) (proj (xarr m c : Mat 10000 128) (warr m c : Mat 128 128))
      (row t p) q + proj (xarr m c : Mat 10000 128) (warr m c : Mat 128 128) (ix2 (row t p) q)
  refine congrArg₂ (· + ·) ?_ ?_
  · unfold rowDot madj
    exact Finset.sum_congr rfl fun k _ => by beta_reduce; rw [ablk_apply, mblk_apply]
  · show _ = ∑ j : Fin 128, xarr m c (ix2 (row t p) j) * wt (warr m c : Mat 128 128) (ix2 j q)
    unfold rowDot
    exact Finset.sum_congr rfl fun j _ => by rw [ownRows_apply]

/-- WHAT POINT `t` WRITES BACK is block `t` of the layer. -/
theorem flushed_eq (c : Dev nD) (t : Fin cfg0.N) :
    (dats m 0 c).flushed 4 t = ((cfg0.win 4).blk t).view.read (Elt Ideal) (result m c) := by
  obtain ⟨-, -, -, -, -, -, -, -, e0, e1, -⟩ := idx_facts t
  rw [flushed4, out_eq, out_block_eq]
  funext y
  show result m c (ix2 (row t (y 0)) (y 1)) = result m c (((cfg0.win 4).blk t).view.emb y)
  refine congrArg (result m c) (funext fun a => Fin.ext ?_)
  match a with
  | ⟨0, _⟩ => show 200 * t.val + (y 0).val = win0_4.index t (0 : Fin 2) * 200 + 1 * (y 0).val; omega
  | ⟨1, _⟩ => show (y 1).val = win0_4.index t (1 : Fin 2) * 128 + 1 * (y 1).val; omega

/-- An index of the result array is in point `t`'s block iff each coordinate is in the block's range. -/
theorem mem_blk (t : Fin cfg0.N) (i : S10000x128.Idx) :
    i ∈ ((cfg0.win 4).blk t).view.set ↔ ∀ a : Fin 2, win0_4.index t a * S200x128.size a ≤ (i a).val
      ∧ (i a).val < win0_4.index t a * S200x128.size a + S200x128.size a := by
  show i ∈ ((View.whole main_v0).slice (win0_4.rect t)).set ↔ _
  rw [View.set_slice_whole, Rect.mem_set_unit]
  exact Iff.rfl

/-- THE COVER: row `r` of the result is in the block of point `r / 200`. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hlt : (i 0).val / 200 < cfg0.N := by rw [show cfg0.N = 50 from N_0]; omega
  obtain ⟨-, -, -, -, -, -, -, -, e0, e1, -⟩ := idx_facts ⟨(i 0).val / 200, hlt⟩
  have e0' : win0_4.index ⟨(i 0).val / 200, hlt⟩ (0 : Fin 2) = (i 0).val / 200 := e0
  refine ⟨⟨(i 0).val / 200, hlt⟩, flush0_4 _, ?_⟩
  rw [mem_blk]
  intro a
  match a with
  | ⟨0, _⟩ =>
    show win0_4.index ⟨(i 0).val / 200, hlt⟩ (0 : Fin 2) * 200 ≤ (i 0).val
      ∧ (i 0).val < win0_4.index ⟨(i 0).val / 200, hlt⟩ (0 : Fin 2) * 200 + 200
    omega
  | ⟨1, _⟩ =>
    show win0_4.index ⟨(i 0).val / 200, hlt⟩ (1 : Fin 2) * 128 ≤ (i 1).val
      ∧ (i 1).val < win0_4.index ⟨(i 0).val / 200, hlt⟩ (1 : Fin 2) * 128 + 128
    omega

/-- THE ARRAY after the run is the layer of the argument arrays. -/
theorem final (c : Dev nD) : (dats m 0 c).arrAt 4 cfg0.N = result m c :=
  (dats m 0 c).arrAt_eq_of_cover 4 (result m c) (fun t _ => flushed_eq m c t) cover

/-- The kernel's run: it terminates with the result array at the layer and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end AtIdeal

end Cert.KernelIdeal.GcnBlocks

end
-- ==== Proof.RefSide.lean ====
/-
  The reference computes the layer.

  Read one operation at a time, the reference's result at row `r`, column `q` is
      ∑ k, (adj (r, k) · mask (r, k) + [r = k]) · h (k, q),     h (k, q) = ∑ j, x (k, j) · w (q, j):
  the identity matrix — the row number compared with the column number, the bit read as a float —
  added to the masked adjacency, then one matrix product with the projected features. With every input
  entry finite that is the layer (the law `ref_eq_layer`).
-/
import proofs.«152034_g4569845203241_cont_8to1_c_799_20_alg».proof.Proof.Gen.ReferenceIdeal.Read
import proofs.«152034_g4569845203241_cont_8to1_c_799_20_alg».proof.Proof.Spec

noncomputable section

open scoped BigOperators

namespace Cert.ReferenceIdeal.GcnRef

open Cert.ReferenceIdeal Cert.ReferenceIdeal.Read Idealize.ShloMosaic Idealize.ShloMosaic.ValueIdx
open Cert.LibRowDot Cert.GcnSpec

/-- The reference's first product is the projected features. -/
theorem ref_proj (x : FVec Ideal S10000x128 .f32) (w : FVec Ideal S128x128 .f32) (k : Fin 10000) (q : Fin 128) :
    val_main_v9 (F := Ideal) x w (ix2 k q) = proj (x : Mat 10000 128) (w : Mat 128 128) (ix2 k q) := by
  rw [val_main_v9_apply]
  show _ = ∑ j : Fin 128, x (ix2 k j) * w (ix2 q j)
  refine Finset.sum_congr rfl fun j _ => ?_
  rw [val_main_v8_apply]
  have e1 : lidx_main_v9 (ix2 k q) j = ix2 k j :=
    funext fun a => Fin.ext (by match a with | ⟨0, _⟩ => rfl | ⟨1, _⟩ => rfl)
  have e2 : idx_main_v8 (ridx_main_v9 (ix2 k q) j) = ix2 q j :=
    funext fun a => Fin.ext (by match a with | ⟨0, _⟩ => rfl | ⟨1, _⟩ => rfl)
  rw [e1, e2]

/-- The reference's left operand: the masked adjacency plus the diagonal indicator. -/
theorem ref_lhs (a mk : FVec Ideal S10000x10000 .f32) (r k : Fin 10000) :
    val_main_v7 (F := Ideal) a mk (ix2 r k) = a (ix2 r k) * mk (ix2 r k) + (if r = k then (1 : EReal) else 0) := by
  rw [val_main_v7_apply, val_main_v0_apply, val_main_v6_apply, val_main_v5_apply, val_main_v4_apply,
    val_main_v1_apply, val_main_v2_apply, val_main_v3_apply, val_main_c_apply]
  show a (ix2 r k) * mk (ix2 r k)
      + FloatOps.uitofp (F := Ideal) .f32
          (IntOp.cmpi .eq (IntOp.addi (BitVec.ofNat 32 r.val) 0#32) (BitVec.ofNat 32 k.val)) = _
  rw [diag_word r k (by norm_num)]

/-- THE REFERENCE'S VALUE: with finite inputs its result array is the layer. -/
theorem ref_value (x : FVec Ideal S10000x128 .f32) (a mk : FVec Ideal S10000x10000 .f32)
    (w : FVec Ideal S128x128 .f32) (hx : IsReal x) (ha : IsReal a) (hm : IsReal mk) (hw : IsReal w) :
    val_main_v10 (F := Ideal) x a mk w = layer (x : Mat 10000 128) a mk w := by
  funext i
  obtain ⟨r, q, rfl⟩ : ∃ (r : Fin 10000) (q : Fin 128), i = ix2 r q := ⟨i 0, i 1, eq_ix2 i⟩
  rw [val_main_v10_apply, ← ref_eq_layer x a mk w hx ha hm hw r q]
  refine Finset.sum_congr rfl fun k _ => ?_
  have el : lidx_main_v10 (ix2 r q) k = ix2 r k :=
    funext fun b => Fin.ext (by match b with | ⟨0, _⟩ => rfl | ⟨1, _⟩ => rfl)
  have er : ridx_main_v10 (ix2 r q) k = ix2 k q :=
    funext fun b => Fin.ext (by match b with | ⟨0, _⟩ => rfl | ⟨1, _⟩ => rfl)
  rw [el, er, ref_lhs, ref_proj]

end Cert.ReferenceIdeal.GcnRef

end
-- ==== Proof.Finite.lean ====
/-
  What the precondition says: every entry of the four input arrays is a real number.

  The precondition is `jnp.all (|x| < +∞)` for each input, the four conjoined. An `all` that came out
  true was true at every entry; the comparison bound, the word `0x7F800000`, is `+∞` on the extended
  reals; and an extended real whose absolute value `max v (-v)` lies strictly below `+∞` is neither
  infinity, hence a real.
-/
import Idealize.ShloMosaic.Lib.ReduceAll
import Idealize.ShloMosaic.Lib.Pipeline.Value
import Idealize.ShloMosaic.PureOps.Ideal.Laws
import proofs.«152034_g4569845203241_cont_8to1_c_799_20_alg».proof.Pre_finite_inputs
import proofs.«152034_g4569845203241_cont_8to1_c_799_20_alg».proof.Proof.Spec

noncomputable section

namespace Cert.GcnFinite

open Idealize.ShloMosaic Cert.GcnSpec

/-- The rank-zero shape has one index. -/
instance : Subsingleton (⟨0, ![]⟩ : Shape).Idx := ⟨fun _ _ => funext fun d => d.elim0⟩

/-- The comparison bound of the precondition is `+∞`. -/
theorem inf_word : Ideal.ofBits .f32 0x7F800000#32 = ⊤ := by simp [Ideal.ofBits, Ideal.ieee]

/-- An extended real whose absolute value is strictly below `+∞` is a real. -/
theorem real_of_abs_lt_top (v : EReal) (h : max v (-v) < ⊤) : ∃ r : ℝ, v = (r : EReal) := by
  induction v using EReal.rec with
  | bot => simp at h
  | coe r => exact ⟨r, rfl⟩
  | top => simp at h

/-- One input: if `all (|x| < +∞)` is true, every entry of `x` is a real. -/
theorem isReal_of_all {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (x : FVec Ideal s .f32)
    (e : Host.reduce IntOp.andi
        (cmpf .olt (Host.absf x) (broadcastInDim s ![] hb (constant (F := Ideal) ⟨0, ![]⟩ .f32 0x7F800000#32)))
        (constantI ⟨0, ![]⟩ 1 1#1) hr hu ValueIdx.ix0 = 1#1) : IsReal x := by
  intro i
  have hi := Host.reduce_andi_all _ _ hr hu ValueIdx.ix0 e i
  have hb' : broadcastInDim s ![] hb (constant (F := Ideal) ⟨0, ![]⟩ .f32 0x7F800000#32) i
      = Ideal.ofBits .f32 0x7F800000#32 :=
    broadcastInDim_apply _ hb _ i ValueIdx.ix0 (fun a => a.elim0)
  have hc : Ideal.cmp .olt (max (x i) (-(x i))) ⊤ = 1#1 := by
    rw [← inf_word, ← hb']; exact hi
  have hlt : max (x i) (-(x i)) < ⊤ := by
    by_contra hn
    unfold Ideal.cmp at hc
    simp [hn] at hc
  exact real_of_abs_lt_top _ hlt

/-- The precondition, all ones, makes every entry of every input a real. -/
theorem reals_of_pre [Cert.Pre_finite_inputs.Facts]
    (x : FVec Ideal Cert.Pre_finite_inputs.S10000x128 .f32) (a mk : FVec Ideal Cert.Pre_finite_inputs.S10000x10000 .f32)
    (w : FVec Ideal Cert.Pre_finite_inputs.S128x128 .f32)
    (h : Cert.Pre_finite_inputs.fn (F := Ideal) x a mk w = fun _ => 1#1) :
    IsReal x ∧ IsReal a ∧ IsReal mk ∧ IsReal w := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨isReal_of_all _ _ _ x h1, isReal_of_all _ _ _ a h2, isReal_of_all _ _ _ mk h3, isReal_of_all _ _ _ w h4⟩

end Cert.GcnFinite

end
-- ==== Proof.lean ====
/-
  A graph-convolution layer: `out = (adj ∘ mask + I) · (x · wᵀ)`, with `x : [10000, 128]` the node
  features, `adj`, `mask : [10000, 10000]`, `w : [128, 128]` the weights.

  The reference adds the identity to the masked adjacency and multiplies once by the projected features
  `h = x · wᵀ`. The kernel never forms `adj ∘ mask + I`: over a grid of 50 strips of 200 rows it keeps
  `h` in a scratch buffer (computed at the first strip, reused by the rest) and writes, for its strip,
  `(adj ∘ mask) · h + x[strip] · wᵀ` — the identity's contribution is the strip's own projected rows.

  On the extended reals a change of float format is the identity and every matrix product is a plain
  row-by-column sum, so entry `(r, q)` of the kernel's result is
      ∑ k, adj (r, k) · mask (r, k) · h (k, q) + h (r, q)
  and of the reference's
      ∑ k, (adj (r, k) · mask (r, k) + [r = k]) · h (k, q).
  They agree by distributing the product over the sum, which is valid at finite entries and is where
  the precondition (every input finite) is used.

  The three frames are the generated ones (the reference's is its generated run with the result
  dropped); the idealization rewrote nothing, so `preserves` is trivial; `algebraic` sets the kernel's
  run, its result array the layer of the arguments, beside the reference's run, whose term is the
  layer of the same arguments.
-/
import proofs.«152034_g4569845203241_cont_8to1_c_799_20_alg».proof.Defs
import proofs.«152034_g4569845203241_cont_8to1_c_799_20_alg».proof.Proof.Gen.Kernel
import proofs.«152034_g4569845203241_cont_8to1_c_799_20_alg».proof.Proof.Gen.Kernel.Skeleton
import proofs.«152034_g4569845203241_cont_8to1_c_799_20_alg».proof.Proof.Gen.Kernel.Launch
import proofs.«152034_g4569845203241_cont_8to1_c_799_20_alg».proof.Proof.Gen.Kernel.Points
import proofs.«152034_g4569845203241_cont_8to1_c_799_20_alg».proof.Proof.Gen.Kernel.Frame
import proofs.«152034_g4569845203241_cont_8to1_c_799_20_alg».proof.Proof.Gen.KernelIdeal
import proofs.«152034_g4569845203241_cont_8to1_c_799_20_alg».proof.Proof.Gen.KernelIdeal.Skeleton
import proofs.«152034_g4569845203241_cont_8to1_c_799_20_alg».proof.Proof.Gen.KernelIdeal.Launch
import proofs.«152034_g4569845203241_cont_8to1_c_799_20_alg».proof.Proof.Gen.KernelIdeal.Points
import proofs.«152034_g4569845203241_cont_8to1_c_799_20_alg».proof.Proof.Gen.KernelIdeal.Frame
import proofs.«152034_g4569845203241_cont_8to1_c_799_20_alg».proof.Proof.Gen.ReferenceIdeal
import proofs.«152034_g4569845203241_cont_8to1_c_799_20_alg».proof.Proof.Gen.Pre_finite_inputs
import proofs.«152034_g4569845203241_cont_8to1_c_799_20_alg».proof.Proof.Gen.KernelIdeal.Value
import proofs.«152034_g4569845203241_cont_8to1_c_799_20_alg».proof.Proof.Gen.ReferenceIdeal.Run
import proofs.«152034_g4569845203241_cont_8to1_c_799_20_alg».proof.Proof.Gen.ReferenceIdeal.Read
import proofs.«152034_g4569845203241_cont_8to1_c_799_20_alg».proof.Proof.Blocks
import proofs.«152034_g4569845203241_cont_8to1_c_799_20_alg».proof.Proof.RefSide
import proofs.«152034_g4569845203241_cont_8to1_c_799_20_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, all finite, both programs end with the layer of the
    arguments in their result arrays. -/
theorem algebraic : Cert.algebraic_KernelIdeal_ReferenceIdeal := by
  intro m ρ m' ρ' hpre hagree
  refine ⟨fun c => Cert.KernelIdeal.GcnBlocks.result m c, Cert.KernelIdeal.GcnBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  obtain ⟨hx, ha, hm, hw⟩ := Cert.GcnFinite.reals_of_pre _ _ _ _ (hpre c)
  rw [Cert.ReferenceIdeal.Read.val_main_v10_eq]
  exact Cert.ReferenceIdeal.GcnRef.ref_value _ _ _ _ hx ha hm hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
